-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128 : Shape := ⟨3, ![4, 256, 128]⟩
abbrev S4x512x512 : Shape := ⟨3, ![4, 512, 512]⟩
abbrev S_ : Shape := ⟨0, ![]⟩

class Facts : Prop where
  bcast_S_S4x256x128 : S_.BroadcastsInDim S4x256x128 (![] : Fin 0 → Fin S4x256x128.rank)
  reducesTo_S4x256x128_S_d0_1_2 : S4x256x128.ReducesTo [0, 1, 2] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4x256x128 .f32) (main_arg1 : IVec S4x512x512 32) : IVec S_ 1 :=
  let main_v0 : FVec F S4x256x128 .f32 := Host.absf main_arg0
  let main_cst : FVec F S_ .f32 := constant S_ .f32 0x7F800000#32
  let main_v1 : FVec F S4x256x128 .f32 := broadcastInDim S4x256x128 ![] bcast_S_S4x256x128 main_cst
  let main_v2 : IVec S4x256x128 1 := cmpf .olt main_v0 main_v1
  let main_c : IVec S_ 1 := constantI S_ 1 1#1
  let main_v3 : IVec S_ 1 := (fun x v => Host.reduce IntOp.andi x v reducesTo_S4x256x128_S_d0_1_2 h_S_) main_v2 main_c
  let main_c_0 : IVec S_ 32 := constantI S_ 32 1#32
  let main_v4 : IVec S4x512x512 32 := broadcastInDim S4x512x512 ![] bcast_S_S4x512x512 main_c_0
  let main_v5 : IVec S4x512x512 1 := cmpi .sge main_arg1 main_v4
  let main_c_1 : IVec S_ 1 := constantI S_ 1 1#1
  let main_v6 : IVec S_ 1 := (fun x v => Host.reduce IntOp.andi x v reducesTo_S4x512x512_S_d0_1_2 h_S_) main_v5 main_c_1
  let main_v7 : IVec S_ 1 := andi main_v3 main_v6
  let main_c_2 : IVec S_ 32 := constantI S_ 32 256#32
  let main_v8 : IVec S4x512x512 32 := broadcastInDim S4x512x512 ![] bcast_S_S4x512x512 main_c_2
  let main_v9 : IVec S4x512x512 1 := cmpi .sle main_arg1 main_v8
  let main_c_3 : IVec S_ 1 := constantI S_ 1 1#1
  let main_v10 : IVec S_ 1 := (fun x v => Host.reduce IntOp.andi x v reducesTo_S4x512x512_S_d0_1_2 h_S_) main_v9 main_c_3
  let main_v11 : IVec S_ 1 := andi main_v7 main_v10
  main_v11
-- ==== Kernel.lean ====
abbrev S4x256x128 : Shape := ⟨3, ![4, 256, 128]⟩
abbrev S4x512x512 : Shape := ⟨3, ![4, 512, 512]⟩
abbrev S4x2048x128 : Shape := ⟨3, ![4, 2048, 128]⟩
abbrev S4x262144x128 : Shape := ⟨3, ![4, 262144, 128]⟩
abbrev S1x32x128 : Shape := ⟨3, ![1, 32, 128]⟩
abbrev S1x256x128 : Shape := ⟨3, ![1, 256, 128]⟩
abbrev S1x4096x128 : Shape := ⟨3, ![1, 4096, 128]⟩
abbrev S32x128 : Shape := ⟨2, ![32, 128]⟩
abbrev S32x128x256 : Shape := ⟨3, ![32, 128, 256]⟩
abbrev S32x128x1 : Shape := ⟨3, ![32, 128, 1]⟩
abbrev S4096x256 : Shape := ⟨2, ![4096, 256]⟩
abbrev S256x128 : Shape := ⟨2, ![256, 128]⟩
abbrev S4096x128 : Shape := ⟨2, ![4096, 128]⟩
abbrev S4x512x512x128 : Shape := ⟨4, ![4, 512, 512, 128]⟩

abbrev nBuf : Space → Nat
  | .hbm => 9
  | .vmem => 8
  | .smem => 0
  | _ => 0

abbrev bufTy : (tb : Table) → Fin (tcTables nBuf tb) → BufTy
  | .hbm, ⟨0, _⟩ => ⟨S4x256x128, .f32⟩
  | .hbm, ⟨1, _⟩ => ⟨S4x512x512, .i32⟩
  | .hbm, ⟨2, _⟩ => ⟨S4x2048x128, .i32⟩
  | .hbm, ⟨3, _⟩ => ⟨S4x256x128, .bf16⟩
  | .hbm, ⟨4, _⟩ => ⟨S4x256x128, .f32⟩
  | .hbm, ⟨5, _⟩ => ⟨S4x256x128, .f32⟩
  | .hbm, ⟨6, _⟩ => ⟨S4x256x128, .bf16⟩
  | .hbm, ⟨7, _⟩ => ⟨S4x262144x128, .f32⟩
  | .hbm, ⟨8, _⟩ => ⟨S4x512x512x128, .f32⟩
  | .local _ .vmem, ⟨0, _⟩ => ⟨S1x32x128, .i32⟩
  | .local _ .vmem, ⟨1, _⟩ => ⟨S1x32x128, .i32⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x4096x128, .f32⟩
  | .local _ .vmem, ⟨7, _⟩ => ⟨S1x4096x128, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x512x512_S4x2048x128 : S4x512x512.ShapeCasts S4x2048x128
  bitsLt_bf16_f32 : FTy.bits .bf16 < FTy.bits .f32
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  iota_S32x128x256_d2_w32 : S32x128x256.Iotas .tc 32 [2]
  shapeCasts_S32x128_S32x128x1 : S32x128.ShapeCasts S32x128x1
  broadcasts_S32x128x1_S32x128x256 : S32x128x1.Broadcasts S32x128x256
  shapeCasts_S32x128x256_S4096x256 : S32x128x256.ShapeCasts S4096x256
  natLt_1_32 : 1 < 32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  shapeCasts_S4x262144x128_S4x512x512x128 : S4x262144x128.ShapeCasts S4x512x512x128
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128.size a ≤ S4x2048x128.size a
  hwx0_0 : ∀ i : grid0.Coords, EltTy.bits .i32 = 32 ∨ (Rect.block (s := S4x2048x128) S1x32x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S4x256x128.size a
  hwx0_1 : ∀ i : grid0.Coords, EltTy.bits .bf16 = 32 ∨ (Rect.block (s := S4x256x128) S1x256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S4x256x128.size a
  hwx0_2 : ∀ i : grid0.Coords, EltTy.bits .bf16 = 32 ∨ (Rect.block (s := S4x256x128) S1x256x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S4x262144x128.size a
  hwx0_3 : ∀ i : grid0.Coords, EltTy.bits .f32 = 32 ∨ (Rect.block (s := S4x262144x128) S1x4096x128.size (cc0_transform_3 i) (hinb0_3 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v0) S1x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x256x128 : Shape := ⟨3, ![4, 256, 128]⟩
abbrev S4x512x512 : Shape := ⟨3, ![4, 512, 512]⟩
abbrev S_ : Shape := ⟨0, ![]⟩
abbrev S4x262144x1 : Shape := ⟨3, ![4, 262144, 1]⟩
abbrev S1 : Shape := ⟨1, ![1]⟩
abbrev S1x1x1 : Shape := ⟨3, ![1, 1, 1]⟩
abbrev S4x262144 : Shape := ⟨2, ![4, 262144]⟩
abbrev S4x262144x128 : Shape := ⟨3, ![4, 262144, 128]⟩
abbrev S4x512x512x128 : Shape := ⟨4, ![4, 512, 512, 128]⟩

abbrev nBuf : Space → Nat
  | .hbm => 29
  | .vmem => 0
  | .smem => 0
  | _ => 0

abbrev bufTy : (tb : Table) → Fin (tcTables nBuf tb) → BufTy
  | .hbm, ⟨0, _⟩ => ⟨S4x256x128, .f32⟩
  | .hbm, ⟨1, _⟩ => ⟨S4x512x512, .i32⟩
  | .hbm, ⟨2, _⟩ => ⟨S_, .i32⟩
  | .hbm, ⟨3, _⟩ => ⟨S4x512x512, .i32⟩
  | .hbm, ⟨4, _⟩ => ⟨S4x512x512, .i32⟩
  | .hbm, ⟨5, _⟩ => ⟨S4x262144x1, .i32⟩
  | .hbm, ⟨6, _⟩ => ⟨S_, .i32⟩
  | .hbm, ⟨7, _⟩ => ⟨S4x262144x1, .i32⟩
  | .hbm, ⟨8, _⟩ => ⟨S4x262144x1, .i1⟩
  | .hbm, ⟨9, _⟩ => ⟨S_, .i32⟩
  | .hbm, ⟨10, _⟩ => ⟨S4x262144x1, .i32⟩
  | .hbm, ⟨11, _⟩ => ⟨S4x262144x1, .i32⟩
  | .hbm, ⟨12, _⟩ => ⟨S4x262144x1, .i32⟩
  | .hbm, ⟨13, _⟩ => ⟨S1, .i32⟩
  | .hbm, ⟨14, _⟩ => ⟨S_, .i32⟩
  | .hbm, ⟨15, _⟩ => ⟨S4x262144x1, .i32⟩
  | .hbm, ⟨16, _⟩ => ⟨S4x262144x1, .i1⟩
  | .hbm, ⟨17, _⟩ => ⟨S1x1x1, .i32⟩
  | .hbm, ⟨18, _⟩ => ⟨S4x262144x1, .i32⟩
  | .hbm, ⟨19, _⟩ => ⟨S4x262144x1, .i1⟩
  | .hbm, ⟨20, _⟩ => ⟨S4x262144x1, .i1⟩
  | .hbm, ⟨21, _⟩ => ⟨S_, .i1⟩
  | .hbm, ⟨22, _⟩ => ⟨S4x262144, .i1⟩
  | .hbm, ⟨23, _⟩ => ⟨S4x262144x128, .f32⟩
  | .hbm, ⟨24, _⟩ => ⟨S4x262144x128, .i1⟩
  | .hbm, ⟨25, _⟩ => ⟨S_, .f32⟩
  | .hbm, ⟨26, _⟩ => ⟨S4x262144x128, .f32⟩
  | .hbm, ⟨27, _⟩ => ⟨S4x262144x128, .f32⟩
  | .hbm, ⟨28, _⟩ => ⟨S4x512x512x128, .f32⟩
  | _, _ => ⟨S4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S_S4x512x512 : S_.BroadcastsInDim S4x512x512 (![] : Fin 0 → Fin S4x512x512.rank)
  shapeCasts_S4x512x512_S4x262144x1 : S4x512x512.ShapeCasts S4x262144x1
  bcast_S_S4x262144x1 : S_.BroadcastsInDim S4x262144x1 (![] : Fin 0 → Fin S4x262144x1.rank)
  bcast_S1_S1x1x1_2 : S1.BroadcastsInDim S1x1x1 (![2] : Fin 1 → Fin S1x1x1.rank)
  bcast_S1x1x1_S4x262144x1_0_1_2 : S1x1x1.BroadcastsInDim S4x262144x1 (![0, 1, 2] : Fin 3 → Fin S4x262144x1.rank)
  reducesTo_S4x262144x1_S4x262144_d2 : S4x262144x1.ReducesTo [2] S4x262144
  h_S_ : 0 < S_.numel
  bcast_S4x262144_S4x262144x128_0_1 : S4x262144.BroadcastsInDim S4x262144x128 (![0, 1] : Fin 2 → Fin S4x262144x128.rank)
  bcast_S_S4x262144x128 : S_.BroadcastsInDim S4x262144x128 (![] : Fin 0 → Fin S4x262144x128.rank)
  shapeCasts_S4x262144x128_S4x512x512x128 : S4x262144x128.ShapeCasts S4x512x512x128
  gather_S4x256x128_S4x262144x1_S4x262144x128_2_1_0_0_1_2_11128_wf : GatherDims.WF S4x256x128 S4x262144x1 S4x262144x128 [2] [1] [0] [1] [0] 2 ![1, 1, 128]

variable [Facts₀]

def gather_S4x256x128_S4x262144x1_S4x262144x128_2_1_0_0_1_2_11128 : GatherDims S4x256x128 S4x262144x1 S4x262144x128 where
  offsetDims := [2]
  collapsedSliceDims := [1]
  operandBatchingDims := [0]
  startIndicesBatchingDims := [0]
  startIndexMap := [1]
  indexVectorDim := 2
  sliceSizes := ![1, 1, 128]
  wf := gather_S4x256x128_S4x262144x1_S4x262144x128_2_1_0_0_1_2_11128_wf

class Facts : Prop extends Facts₀ where

variable [Facts]
-- ==== Proof.RowWords.lean ====
/-
  Words and sums for a row lookup written as a one-hot product.

  A segment id `w` is a 32-bit word; the row it names is `w - 1`. For an id in its range, `1 ≤ w ≤ 256` read signed,
  the difference `w - 1` lies in `[0, 255]`, so
    * clamping it into `[0, 255]` (a maximum with 0, then a minimum with 255) changes nothing;
    * numpy's wrap of a negative index (add 256 when below 0) changes nothing, and the test `0 ≤ · ≤ 255` succeeds;
    * a gather's own clamp `min · 255` of the signed reading changes nothing.
  The row's number as an element of `Fin 256` is `rowOf w`, defined for every word by that last clamp.

  Comparing the clamped word with the position `s` along an axis of extent 256 gives a bit that is set exactly at
  `s = rowOf w`; widened, read as a signed integer and then as a real it is the number 1 there and 0 elsewhere. On the
  extended reals `0 · x = 0` and `1 · x = x` for EVERY `x`, so the sum over `s` of that number times `x s` is
  `x (rowOf w)`: the one-hot product selects a row exactly, with no condition on the table.

  Last, `|x| < +∞` on the extended reals says `x` is a real number, and for a real number `x + (x - x) = x`.
-/
import Idealize.ShloMosaic.PureOps.Ideal.Laws
import Idealize.ShloMosaic.Lib.ValueIdx
import Idealize.ShloMosaic.Lib.Affine
import Idealize.ShloMosaic.Lib.StableHlo.Predicate

noncomputable section

open scoped BigOperators

namespace Cert.RowLookup

open Idealize.ShloMosaic

/-- The table row a 1-based segment id names: the id less one, read signed and clamped into `[0, 255]`. -/
def rowOf (w : BitVec 32) : Fin 256 := ⟨min (IntOp.subi w 1#32).toInt.toNat 255, by omega⟩

/-- A segment id in its range `[1, 256]`. -/
def InRange (w : BitVec 32) : Prop := 1 ≤ w.toInt ∧ w.toInt ≤ 256

/-- What the two comparisons of the precondition say of one id. -/
theorem inRange_of_cmp {w : BitVec 32} (h1 : IntOp.cmpi .sge w 1#32 = 1#1) (h2 : IntOp.cmpi .sle w 256#32 = 1#1) : InRange w := by
  rw [IntOp.cmpi_sge] at h1
  rw [IntOp.cmpi_sle] at h2
  exact ⟨by simpa using h1, by simpa using h2⟩

/-- The id less one does not wrap. -/
theorem toInt_pred {w : BitVec 32} (h : InRange w) : (IntOp.subi w 1#32).toInt = w.toInt - 1 := by
  obtain ⟨h1, h2⟩ := h
  unfold IntOp.subi
  rw [BitVec.toInt_sub, show (1#32 : BitVec 32).toInt = 1 from by decide]
  exact Int.bmod_eq_of_le (by omega) (by omega)

/-- The row's number. -/
theorem rowOf_val {w : BitVec 32} (h : InRange w) : ((rowOf w).val : Int) = w.toInt - 1 := by
  have hv := toInt_pred h
  obtain ⟨h1, h2⟩ := h
  show ((min (IntOp.subi w 1#32).toInt.toNat 255 : Nat) : Int) = _
  rw [hv]; omega

/-- The id less one IS the row's number as a word. -/
theorem pred_eq_ofNat {w : BitVec 32} (h : InRange w) : IntOp.subi w 1#32 = BitVec.ofNat 32 (rowOf w).val := by
  apply BitVec.eq_of_toInt_eq
  rw [toInt_pred h, StableHlo.Predicate.toInt_ofNat_small _ (by have := (rowOf w).isLt; omega), rowOf_val h]

/-- Clamping the id less one into `[0, 255]` changes nothing. -/
theorem clip_pred {w : BitVec 32} (h : InRange w) :
    IntOp.minsi 255#32 (IntOp.maxsi 0#32 (IntOp.subi w 1#32)) = IntOp.subi w 1#32 := by
  have hv := toInt_pred h
  obtain ⟨h1, h2⟩ := h
  have hmax : IntOp.maxsi 0#32 (IntOp.subi w 1#32) = IntOp.subi w 1#32 := by
    unfold IntOp.maxsi
    rw [if_neg]
    simp only [BitVec.slt_iff_toInt_lt, hv, show (0#32 : BitVec 32).toInt = 0 from by decide]; omega
  rw [hmax]
  unfold IntOp.minsi
  rw [if_neg]
  simp only [BitVec.slt_iff_toInt_lt, hv, show (255#32 : BitVec 32).toInt = 255 from by decide]; omega

/-- numpy's wrap of a negative index leaves the id less one alone. -/
theorem wrap_pred {w : BitVec 32} (h : InRange w) :
    Scalar.select (IntOp.cmpi .slt (IntOp.subi w 1#32) 0#32) (IntOp.addi (IntOp.subi w 1#32) 256#32) (IntOp.subi w 1#32)
      = IntOp.subi w 1#32 := by
  have hv := toInt_pred h
  obtain ⟨h1, h2⟩ := h
  unfold Scalar.select
  rw [if_neg]
  intro hc
  have hc' : IntOp.cmpi .slt (IntOp.subi w 1#32) 0#32 = 1#1 := hc
  rw [IntOp.cmpi_slt, hv, show (0#32 : BitVec 32).toInt = 0 from by decide] at hc'
  omega

/-- and the bounds test on it succeeds. -/
theorem inBounds_pred {w : BitVec 32} (h : InRange w) :
    IntOp.andi (IntOp.cmpi .sge (IntOp.subi w 1#32) 0#32) (IntOp.cmpi .sle (IntOp.subi w 1#32) 255#32) = 1#1 := by
  have hv := toInt_pred h
  obtain ⟨h1, h2⟩ := h
  rw [IntOp.andi_eq_one, IntOp.cmpi_sge, IntOp.cmpi_sle, hv, show (0#32 : BitVec 32).toInt = 0 from by decide,
    show (255#32 : BitVec 32).toInt = 255 from by decide]
  omega

/-- The position `s` along an axis of extent 256 meets the clamped word exactly at the row. -/
theorem eq_pos_iff {w : BitVec 32} (h : InRange w) (s : Fin 256) :
    IntOp.cmpi .eq (IntOp.minsi 255#32 (IntOp.maxsi 0#32 (IntOp.subi w 1#32))) (BitVec.ofNat 32 s.val) = 1#1 ↔ s = rowOf w := by
  rw [clip_pred h, pred_eq_ofNat h, IntOp.cmpi_eq]
  constructor
  · intro e
    have := congrArg BitVec.toNat e
    simp only [BitVec.toNat_ofNat] at this
    have hs := s.isLt; have hr := (rowOf w).isLt
    exact Fin.ext (by omega)
  · rintro rfl; rfl

/-- A bit, widened to a word, read signed and then as a real number: 1 if set, 0 if not. -/
theorem bit_as_real (b : BitVec 1) : (((b.setWidth 32).toInt : ℝ) : EReal) = if b = 1#1 then 1 else 0 := by
  rcases BitVec.eq_zero_or_eq_one b with rfl | rfl
  · rw [if_neg (by decide), show ((0#1 : BitVec 1).setWidth 32).toInt = 0 from by decide]; simp
  · rw [if_pos rfl, show ((1#1 : BitVec 1).setWidth 32).toInt = 1 from by decide]; simp

/-- THE ONE-HOT SUM on the extended reals: the indicator of `k` times `x`, summed, is `x k`, for every `x`. -/
theorem sum_indicator_mul {n : Nat} (k : Fin n) (x : Fin n → EReal) :
    ∑ s : Fin n, (if s = k then (1 : EReal) else 0) * x s = x k := by
  rw [Finset.sum_eq_single k]
  · rw [if_pos rfl, one_mul]
  · intro s _ hs; rw [if_neg hs, zero_mul]
  · intro hk; exact absurd (Finset.mem_univ k) hk

/-- `|x| < +∞` on the extended reals: `x` is a real number. -/
theorem real_of_abs_lt_top {x : EReal}
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have h'' : BitVec.ofBool (decide (max x (-x) < ⊤)) = 1#1 := h'
  rw [StableHlo.Predicate.ofBool_eq_one_iff, decide_eq_true_eq] at h''
  have hlt := h''
  rw [max_lt_iff] at hlt
  induction x using EReal.rec with
  | bot => exact absurd hlt.2 (by simp)
  | top => exact absurd hlt.1 (by simp)
  | coe r => exact ⟨r, rfl⟩

/-- For a real number, adding `x - x` changes nothing. -/
theorem add_sub_self_of_real {x : EReal} (h : ∃ r : ℝ, x = (r : EReal)) : x + (x - x) = x := by
  obtain ⟨r, rfl⟩ := h
  rw [← EReal.coe_sub, sub_self, EReal.coe_zero, add_zero]

end Cert.RowLookup

end
-- ==== Proof.PreDecode.lean ====
/-
  The precondition, read back. It is the conjunction of three `all`s: every table entry has `|x| < +∞`, every segment
  id is at least 1, every segment id is at most 256. Each `all` is a reduction by `and` over the whole array into one
  bit that is set, so every element's comparison bit is set; a table entry with `|x| < +∞` is a real number, and an id
  with both comparison bits set lies in `[1, 256]`.
-/
import proofs.«421582_j33543694582286_3_alg».proof.Proof.Gen.Pre_finite_inputs
import proofs.«421582_j33543694582286_3_alg».proof.Proof.RowWords
import Idealize.ShloMosaic.Lib.ReduceAll

noncomputable section

namespace Cert.RowLookup

open Idealize.ShloMosaic Cert.Pre_finite_inputs Cert.Pre_finite_inputs.Gen

/-- The scalar shape has one index. -/
instance : Subsingleton Cert.Pre_finite_inputs.S_.Idx := ⟨fun a b => funext fun d => d.elim0⟩

/-- THE PRECONDITION DECODED: every table entry a real number, every segment id in `[1, 256]`. -/
theorem pre_decode (x0 : FVec Ideal S4x256x128 .f32) (x1 : IVec S4x512x512 32)
    (h : Cert.Pre_finite_inputs.fn (F := Ideal) x0 x1 = fun _ => 1#1) :
    (∀ i : S4x256x128.Idx, ∃ r : ℝ, x0 i = (r : EReal)) ∧ (∀ i : S4x512x512.Idx, InRange (x1 i)) := by
  have e := congrFun h ValueIdx.ix0
  dsimp only [Cert.Pre_finite_inputs.fn] at e
  change IntOp.andi (IntOp.andi _ _) _ = 1#1 at e
  rw [IntOp.andi_eq_one, IntOp.andi_eq_one] at e
  obtain ⟨⟨e1, e2⟩, e3⟩ := e
  refine ⟨fun i => ?_, fun i => ?_⟩
  · exact real_of_abs_lt_top (Host.reduce_andi_all _ _ _ _ _ e1 i)
  · exact inRange_of_cmp (Host.reduce_andi_all _ _ _ _ _ e2 i) (Host.reduce_andi_all _ _ _ _ _ e3 i)

end Cert.RowLookup

end
-- ==== Proof.KernelPayload.lean ====
/-
  What the kernel body stores, at an index, on the extended reals.

  The body loads a [1, 32, 128] block of segment ids, a [1, 256, 128] block `hi` and a [1, 256, 128] block `lo`, and
  stores a [1, 4096, 128] block. Pixel `p` of the block (0 ≤ p < 4096) is the id at row `p / 128`, lane `p % 128` of
  the id block. The body clamps `id - 1` into [0, 255], compares it with the position `s` along a new axis of extent
  256, flattens (row, lane) to the pixel axis, and reads the hit bit as the number 0 or 1: the weight of table row `s`
  for pixel `p`. Its result at (p, c) is

        (∑ s, weight p s · hi[s, c])  +  (∑ s, weight p s · lo[s, c]).

  For an id in [1, 256] the weight is the indicator of `s = id - 1`, so each sum is that one row's entry: the result is
  `hi[id - 1, c] + lo[id - 1, c]` (Proof/RowWords.lean: the one-hot sum holds for every table on the extended reals).
-/
import proofs.«421582_j33543694582286_3_alg».proof.Proof.Gen.KernelIdeal.Skeleton
import proofs.«421582_j33543694582286_3_alg».proof.Proof.RowWords
import Idealize.ShloMosaic.Lib.Pipeline.Value
import Idealize.ShloMosaic.Lib.ValueIdx
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.RowLookup

/-! ## The body in layers -/

/-- `id - 1` clamped into [0, 255], per (row, lane) of the id block. -/
def clamped (x0 : Vec Ideal S1x32x128 .i32) : IVec S32x128 32 :=
  minsi (broadcast S32x128 255#32) (maxsi (broadcast S32x128 0#32)
    (subi (shapeCast S32x128 x0 shapeCasts_S1x32x128_S32x128) (broadcast S32x128 1#32)))

/-- The hit bit: the clamped word equals the position along the new axis. -/
def hits (x0 : Vec Ideal S1x32x128 .i32) : IVec S32x128x256 1 :=
  cmpi .eq (broadcastTo S32x128x256 (shapeCast S32x128x1 (clamped x0) shapeCasts_S32x128_S32x128x1) broadcasts_S32x128x1_S32x128x256)
    (iota .tc S32x128x256 32 [2] iota_S32x128x256_d2_w32)

/-- The weights: the hit bits over (pixel, table row), read as numbers. -/
def weights (x0 : Vec Ideal S1x32x128 .i32) : FVec Ideal S4096x256 .bf16 :=
  truncf .bf16 (sitofp .f32 (extui 32 (shapeCast S4096x256 (hits x0) shapeCasts_S32x128x256_S4096x256) natLt_1_32)) bitsLt_bf16_f32

/-- The two products added. -/
def sums (x0 : Vec Ideal S1x32x128 .i32) (x1 x2 : Vec Ideal S1x256x128 .bf16) : FVec Ideal S4096x128 .f32 :=
  addf
    (matmul dot_S4096x256_S256x128_S4096x128_1_0_0_1_n_n none (weights x0) (shapeCast S256x128 x1 shapeCasts_S1x256x128_S256x128 : FVec Ideal S256x128 .bf16)
      (constant (F := Ideal) S4096x128 .f32 0x00000000#32))
    (matmul dot_S4096x256_S256x128_S4096x128_1_0_0_1_n_n none (weights x0) (shapeCast S256x128 x2 shapeCasts_S1x256x128_S256x128 : FVec Ideal S256x128 .bf16)
      (constant (F := Ideal) S4096x128 .f32 0x00000000#32))

/-- The stored value is those layers, given back its unit axis. -/
theorem pay_eq (x0 : Vec Ideal S1x32x128 .i32) (x1 x2 : Vec Ideal S1x256x128 .bf16) :
    k0_pay1 (F := Ideal) x0 x1 x2 = shapeCast S1x4096x128 (sums x0 x1 x2) shapeCasts_S4096x128_S1x4096x128 := rfl

/-! ## Each layer at an index -/

theorem clamped_apply (x0 : Vec Ideal S1x32x128 .i32) (r : Fin 32) (l : Fin 128) :
    clamped x0 (ix2 r l) = IntOp.minsi 255#32 (IntOp.maxsi 0#32 (IntOp.subi (x0 (ix3 (0 : Fin 1) r l)) 1#32)) := by
  unfold clamped
  show IntOp.minsi 255#32 (IntOp.maxsi 0#32 (IntOp.subi (shapeCast S32x128 x0 shapeCasts_S1x32x128_S32x128 (ix2 r l)) 1#32)) = _
  rw [shapeCast_apply x0 shapeCasts_S1x32x128_S32x128 (ix2 r l) (ix3 (0 : Fin 1) r l) (by
    rw [Shape.rowMajor_val_three, Shape.rowMajor_val_two]
    show ((0 : Nat) * 32 + r.val) * 128 + l.val = r.val * 128 + l.val
    omega)]

theorem hits_apply (x0 : Vec Ideal S1x32x128 .i32) (r : Fin 32) (l : Fin 128) (s : Fin 256) :
    hits x0 (ix3 r l s) = IntOp.cmpi .eq (clamped x0 (ix2 r l)) (BitVec.ofNat 32 s.val) := by
  unfold hits
  show IntOp.cmpi .eq (broadcastTo S32x128x256 (shapeCast S32x128x1 (clamped x0) shapeCasts_S32x128_S32x128x1) broadcasts_S32x128x1_S32x128x256 (ix3 r l s))
    (iota .tc S32x128x256 32 [2] iota_S32x128x256_d2_w32 (ix3 r l s)) = _
  rw [iota_single_apply, broadcastTo_apply _ broadcasts_S32x128x1_S32x128x256 (ix3 r l s) (ix3 r l (0 : Fin 1)) (fun a => by
      match a with
      | ⟨0, _⟩ => show r.val = if (32 : Nat) = 1 then 0 else r.val; rw [if_neg (by decide)]
      | ⟨1, _⟩ => show l.val = if (128 : Nat) = 1 then 0 else l.val; rw [if_neg (by decide)]
      | ⟨2, _⟩ => show (0 : Nat) = if (1 : Nat) = 1 then 0 else s.val; rw [if_pos rfl]),
    shapeCast_apply (clamped x0) shapeCasts_S32x128_S32x128x1 (ix3 r l (0 : Fin 1)) (ix2 r l) (by
      rw [Shape.rowMajor_val_three, Shape.rowMajor_val_two]
      show r.val * 128 + l.val = (r.val * 128 + l.val) * 1 + 0
      omega)]

theorem weights_apply (x0 : Vec Ideal S1x32x128 .i32) (p : Fin 4096) (s : Fin 256) :
    weights x0 (ix2 p s)
      = (((((hits x0 (ix3 (⟨p.val / 128, by omega⟩ : Fin 32) (⟨p.val % 128, by omega⟩ : Fin 128) s)).setWidth 32).toInt : ℝ)) : EReal) := by
  unfold weights
  show ((((shapeCast S4096x256 (hits x0) shapeCasts_S32x128x256_S4096x256 (ix2 p s)).setWidth 32).toInt : ℝ) : EReal) = _
  rw [shapeCast_apply (hits x0) shapeCasts_S32x128x256_S4096x256 (ix2 p s)
    (ix3 (⟨p.val / 128, by omega⟩ : Fin 32) (⟨p.val % 128, by omega⟩ : Fin 128) s) (by
      rw [Shape.rowMajor_val_three, Shape.rowMajor_val_two]
      show (p.val / 128 * 128 + p.val % 128) * 256 + s.val = p.val * 256 + s.val
      omega)]

/-- The id a pixel of the block reads. -/
abbrev idAt (x0 : Vec Ideal S1x32x128 .i32) (p : Fin 4096) : BitVec 32 :=
  x0 (ix3 (0 : Fin 1) (⟨p.val / 128, by omega⟩ : Fin 32) (⟨p.val % 128, by omega⟩ : Fin 128))

/-- For an id in its range the weight is the indicator of its row. -/
theorem weights_indicator (x0 : Vec Ideal S1x32x128 .i32) (p : Fin 4096) (s : Fin 256) (hw : InRange (idAt x0 p)) :
    weights x0 (ix2 p s) = if s = rowOf (idAt x0 p) then (1 : EReal) else 0 := by
  rw [weights_apply, bit_as_real, hits_apply, clamped_apply]
  exact if_congr (eq_pos_iff hw s) rfl rfl

/-! ## The product with the weights selects a row -/

theorem lhs_axis0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl
theorem lhs_axis1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhs_axis0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhs_axis1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- The product of the weights with any [256, 128] table, at (p, c), is the table's entry at (row of pixel p's id, c). -/
theorem select_row (x0 : Vec Ideal S1x32x128 .i32) (T : FVec Ideal S256x128 .bf16) (p : Fin 4096) (c : Fin 128)
    (hw : InRange (idAt x0 p)) :
    matmul dot_S4096x256_S256x128_S4096x128_1_0_0_1_n_n none (weights x0) T (constant (F := Ideal) S4096x128 .f32 0x00000000#32) (ix2 p c)
      = T (ix2 (rowOf (idAt x0 p)) c) := by
  simp only [matmul]
  rw [Ideal.matmul_constant_zero_apply, ← Equiv.sum_comp (contrEquiv1 dot_S4096x256_S256x128_S4096x128_1_0_0_1_n_n 256 rfl rfl).symm]
  have hterm : ∀ k : Fin 256,
      weights x0 (dot_S4096x256_S256x128_S4096x128_1_0_0_1_n_n.lhsIdx (ix2 p c) ((contrEquiv1 dot_S4096x256_S256x128_S4096x128_1_0_0_1_n_n 256 rfl rfl).symm k))
        * T (dot_S4096x256_S256x128_S4096x128_1_0_0_1_n_n.rhsIdx (ix2 p c) ((contrEquiv1 dot_S4096x256_S256x128_S4096x128_1_0_0_1_n_n 256 rfl rfl).symm k))
      = (if k = rowOf (idAt x0 p) then (1 : EReal) else 0) * T (ix2 k c) := by
    intro k
    have hk := contrEquiv1_symm_val dot_S4096x256_S256x128_S4096x128_1_0_0_1_n_n 256 rfl rfl k
    have el : dot_S4096x256_S256x128_S4096x128_1_0_0_1_n_n.lhsIdx (ix2 p c) ((contrEquiv1 dot_S4096x256_S256x128_S4096x128_1_0_0_1_n_n 256 rfl rfl).symm k) = ix2 p k :=
      funext fun a => Fin.ext (by
        match a with
        | ⟨0, _⟩ => exact lhs_axis0 _ _
        | ⟨1, _⟩ => exact (lhs_axis1 _ _).trans hk)
    have er : dot_S4096x256_S256x128_S4096x128_1_0_0_1_n_n.rhsIdx (ix2 p c) ((contrEquiv1 dot_S4096x256_S256x128_S4096x128_1_0_0_1_n_n 256 rfl rfl).symm k) = ix2 k c :=
      funext fun a => Fin.ext (by
        match a with
        | ⟨0, _⟩ => exact (rhs_axis0 _ _).trans hk
        | ⟨1, _⟩ => exact rhs_axis1 _ _)
    rw [el, er, weights_indicator x0 p k hw]
  rw [Finset.sum_congr rfl fun k _ => hterm k]
  exact sum_indicator_mul (rowOf (idAt x0 p)) fun k => T (ix2 k c)

/-! ## The stored value at an index -/

/-- THE BODY'S RESULT at (0, p, c): the two blocks' entries at the row of pixel p's id, added. -/
theorem pay_apply (x0 : Vec Ideal S1x32x128 .i32) (x1 x2 : Vec Ideal S1x256x128 .bf16) (p : Fin 4096) (c : Fin 128)
    (hw : InRange (idAt x0 p)) :
    k0_pay1 (F := Ideal) x0 x1 x2 (ix3 (0 : Fin 1) p c)
      = x1 (ix3 (0 : Fin 1) (rowOf (idAt x0 p)) c) + x2 (ix3 (0 : Fin 1) (rowOf (idAt x0 p)) c) := by
  rw [pay_eq, shapeCast_apply (sums x0 x1 x2) shapeCasts_S4096x128_S1x4096x128 (ix3 (0 : Fin 1) p c) (ix2 p c) (by
    rw [Shape.rowMajor_val_three, Shape.rowMajor_val_two]
    show p.val * 128 + c.val = ((0 : Nat) * 4096 + p.val) * 128 + c.val
    omega)]
  unfold sums
  show (matmul dot_S4096x256_S256x128_S4096x128_1_0_0_1_n_n none (weights x0) (shapeCast S256x128 x1 shapeCasts_S1x256x128_S256x128 : FVec Ideal S256x128 .bf16)
      (constant (F := Ideal) S4096x128 .f32 0x00000000#32) (ix2 p c) : EReal)
    + matmul dot_S4096x256_S256x128_S4096x128_1_0_0_1_n_n none (weights x0) (shapeCast S256x128 x2 shapeCasts_S1x256x128_S256x128 : FVec Ideal S256x128 .bf16)
      (constant (F := Ideal) S4096x128 .f32 0x00000000#32) (ix2 p c) = _
  have hcast : ∀ (x : Vec Ideal S1x256x128 .bf16) (k : Fin 256),
      shapeCast S256x128 x shapeCasts_S1x256x128_S256x128 (ix2 k c) = x (ix3 (0 : Fin 1) k c) := fun x k =>
    shapeCast_apply x shapeCasts_S1x256x128_S256x128 (ix2 k c) (ix3 (0 : Fin 1) k c) (by
      rw [Shape.rowMajor_val_three, Shape.rowMajor_val_two]
      show ((0 : Nat) * 256 + k.val) * 128 + c.val = k.val * 128 + c.val
      omega)
  rw [select_row x0 _ p c hw, select_row x0 _ p c hw, hcast, hcast]

end Cert.KernelIdeal.RowValue

end
-- ==== Proof.GatherRows.lean ====
/-
  A gather that takes, for each pixel of each batch, one whole row of that batch's table, read at an index.

  The table is [4, 256, 128] (batch, row, channel); the start indices are [4, 262144, 1] (batch, pixel, one component);
  the result is [4, 262144, 128]. The dimension numbers say: axis 0 of the table is a batching axis paired with axis 0 of
  the indices; axis 1 is collapsed and is the one axis the start index names; axis 2 is kept whole (slice size 128) and
  becomes the result's offset axis. So result element (b, q, c) is the table at
      (b,  the start index at (b, q, 0) read signed and clamped into [0, 255],  c):
  on the batching axis the start is 0 and the batch coordinate is `b`; on the collapsed axis the clamped start and
  nothing else; on the kept axis the start is 0 and the offset coordinate is `c`.
-/
import Idealize.ShloMosaic.PureOps
import Idealize.ShloMosaic.Lib.ValueIdx

-- the gather's sixteen conditions, decided at once
set_option synthInstance.maxSize 4096

noncomputable section

namespace Cert.RowLookup

open Idealize.ShloMosaic Idealize.ShloMosaic.ValueIdx

abbrev STable : Shape := ⟨3, ![4, 256, 128]⟩
abbrev SIds : Shape := ⟨3, ![4, 262144, 1]⟩
abbrev SRows : Shape := ⟨3, ![4, 262144, 128]⟩

/-- The conditions on the row gather's dimension numbers hold of these shapes. -/
theorem rowWF : GatherDims.WF STable SIds SRows [2] [1] [0] [1] [0] 2 ![1, 1, 128] := by decide

/-- The dimension numbers of the row gather. -/
abbrev rowDims : GatherDims STable SIds SRows where
  offsetDims := [2]
  collapsedSliceDims := [1]
  operandBatchingDims := [0]
  startIndicesBatchingDims := [0]
  startIndexMap := [1]
  indexVectorDim := 2
  sliceSizes := ![1, 1, 128]
  wf := rowWF

variable {α : Type}

/-- The batching axis: the result's batch coordinate. -/
theorem operand_axis0 (idx : IVec SIds 32) (b : Fin 4) (q : Fin 262144) (c : Fin 128) :
    (rowDims.operandIdx (ix3 b q c) idx (0 : Fin 3)).val = b.val := by
  show rowDims.start (ix3 b q c) idx (0 : Fin 3) + rowDims.batchCoord (ix3 b q c) (0 : Fin 3)
    + rowDims.offCoord (ix3 b q c) (0 : Fin 3) = b.val
  rw [GatherDims.start_batching _ _ _ _ (show (0 : Fin 3) ∈ rowDims.operandBatchingDims from List.mem_singleton.mpr rfl),
    GatherDims.offCoord_eq_zero _ _ _ (fun h => ((GatherDims.mem_sKept _ _).mp h).2 (List.mem_singleton.mpr rfl))]
  unfold GatherDims.batchCoord
  rw [dif_pos (show (0 : Fin 3) ∈ rowDims.operandBatchingDims from List.mem_singleton.mpr rfl), Nat.zero_add, Nat.add_zero]
  rfl

/-- The start-indices index a result element reads its one start component at. -/
theorem start_site (b : Fin 4) (q : Fin 262144) (c : Fin 128) :
    rowDims.siIdx (ix3 b q c) ⟨List.idxOf (1 : Fin 3) rowDims.startIndexMap,
      List.idxOf_lt_length_iff.2 (List.mem_singleton.mpr rfl)⟩ = ix3 b q (0 : Fin 1) := by
  funext a; refine Fin.ext ?_
  match a with
  | ⟨0, _⟩ => rfl
  | ⟨1, _⟩ => rfl
  | ⟨2, _⟩ => rfl

/-- The collapsed axis: the start index, read signed and clamped into [0, 255]. -/
theorem operand_axis1 (idx : IVec SIds 32) (b : Fin 4) (q : Fin 262144) (c : Fin 128) :
    (rowDims.operandIdx (ix3 b q c) idx (1 : Fin 3)).val = min (idx (ix3 b q (0 : Fin 1))).toInt.toNat 255 := by
  show rowDims.start (ix3 b q c) idx (1 : Fin 3) + rowDims.batchCoord (ix3 b q c) (1 : Fin 3)
    + rowDims.offCoord (ix3 b q c) (1 : Fin 3) = _
  rw [GatherDims.batchCoord_eq_zero _ _ _ (show (1 : Fin 3) ∉ ([0] : List (Fin 3)) from by decide),
    GatherDims.offCoord_eq_zero _ _ _ (fun h => ((GatherDims.mem_sKept _ _).mp h).1 (List.mem_singleton.mpr rfl))]
  simp only [Nat.add_zero]
  unfold GatherDims.start
  rw [dif_pos (show (1 : Fin 3) ∈ rowDims.startIndexMap from List.mem_singleton.mpr rfl), start_site b q c]
  rfl

/-- The kept axis: the result's offset coordinate. -/
theorem operand_axis2 (idx : IVec SIds 32) (b : Fin 4) (q : Fin 262144) (c : Fin 128) :
    (rowDims.operandIdx (ix3 b q c) idx (2 : Fin 3)).val = c.val := by
  show rowDims.start (ix3 b q c) idx (2 : Fin 3) + rowDims.batchCoord (ix3 b q c) (2 : Fin 3)
    + rowDims.offCoord (ix3 b q c) (2 : Fin 3) = c.val
  rw [GatherDims.batchCoord_eq_zero _ _ _ (show (2 : Fin 3) ∉ ([0] : List (Fin 3)) from by decide)]
  unfold GatherDims.start
  rw [dif_neg (show (2 : Fin 3) ∉ ([1] : List (Fin 3)) from by decide)]
  unfold GatherDims.offCoord
  rw [dif_pos (show (2 : Fin 3) ∈ rowDims.sKept from (GatherDims.mem_sKept _ _).mpr
    ⟨(show (2 : Fin 3) ∉ ([1] : List (Fin 3)) from by decide), (show (2 : Fin 3) ∉ ([0] : List (Fin 3)) from by decide)⟩),
    Nat.add_zero, Nat.zero_add]
  rfl

/-- THE ROW GATHER READ AT (b, q, c). -/
theorem gather_rows_apply (x : STable.Idx → α) (idx : IVec SIds 32) (b : Fin 4) (q : Fin 262144) (c : Fin 128) :
    Host.gather rowDims x idx (ix3 b q c)
      = x (ix3 b (⟨min (idx (ix3 b q (0 : Fin 1))).toInt.toNat 255, by omega⟩ : Fin 256) c) := by
  unfold Host.gather
  refine congrArg x (funext fun a => Fin.ext ?_)
  match a with
  | ⟨0, _⟩ => exact operand_axis0 idx b q c
  | ⟨1, _⟩ => exact operand_axis1 idx b q c
  | ⟨2, _⟩ => exact operand_axis2 idx b q c

end Cert.RowLookup

end
-- ==== Proof.Spec.lean ====
/-
  THE SPECIFICATION: the per-pixel row lookup.

  `table` is [4, 256, 128] (batch, segment, channel), `ids` is [4, 512, 512] (batch, height, width), 1-based segment ids.
  Flatten each batch's image row-major into 262144 pixels: pixel `q` is (height q / 512, width q % 512). The lookup is the
  [4, 262144, 128] array

        lookup table ids (b, q, c)  =  table (b,  rowOf (ids (b, q / 512, q % 512)),  c),

  `rowOf w` the row `w - 1` (clamped into [0, 255], so that it is defined for every word). Both programs end by viewing this
  array as [4, 512, 512, 128].
-/
import proofs.«421582_j33543694582286_3_alg».proof.Proof.RowWords
import proofs.«421582_j33543694582286_3_alg».proof.Proof.GatherRows

noncomputable section

namespace Cert.RowLookup

open Idealize.ShloMosaic Idealize.ShloMosaic.ValueIdx

abbrev SSeg : Shape := ⟨3, ![4, 512, 512]⟩

/-- Pixel `q` of batch `b` in the image. -/
def pixel (b : Fin 4) (q : Fin 262144) : SSeg.Idx :=
  ix3 b (⟨q.val / 512, by omega⟩ : Fin 512) (⟨q.val % 512, by omega⟩ : Fin 512)

/-- The per-pixel row lookup. -/
def lookup {α : Type} (table : STable.Idx → α) (ids : SSeg.Idx → BitVec 32) : SRows.Idx → α := fun i =>
  table (ix3 (⟨(i 0).val, (i 0).isLt⟩ : Fin 4)
    (rowOf (ids (pixel (⟨(i 0).val, (i 0).isLt⟩ : Fin 4) (⟨(i 1).val, (i 1).isLt⟩ : Fin 262144))))
    (⟨(i 2).val, (i 2).isLt⟩ : Fin 128))

theorem lookup_apply {α : Type} (table : STable.Idx → α) (ids : SSeg.Idx → BitVec 32) (b : Fin 4) (q : Fin 262144) (c : Fin 128) :
    lookup table ids (ix3 b q c) = table (ix3 b (rowOf (ids (pixel b q))) c) := rfl

end Cert.RowLookup

end
-- ==== Proof.KernelValue.lean ====
/-
  What the kernel program leaves in its result, for finite tables and ids in range: the lookup viewed [4, 512, 512, 128].

  Before the launch the host views the ids as [4, 2048, 128], takes `hi` = the table (a change of format is the identity on
  the extended reals) and `lo` = the table less `hi`, entry by entry: `table - table`, which is 0 at every REAL entry.
  Grid point `t` = (batch `b`, tile `ti`) reads ids block (b, ti) — rows 32·ti … 32·ti + 31 of batch `b` —, the whole
  [256, 128] blocks `hi`, `lo` of batch `b`, and writes output block (b, ti): pixels 4096·ti … 4096·ti + 4095. Pixel `p` of
  the block reads the id at row `p / 128`, lane `p % 128`: that is pixel `q = 4096·ti + p` of the batch's image, both
  views being row-major. By the body's value (Proof/KernelPayload.lean) the block's entry (p, c) is
  `hi (b, id - 1, c) + lo (b, id - 1, c) = table + (table - table) = table (b, id - 1, c)`: block `t` of the lookup.
  The 256 blocks tile the [4, 262144, 128] array, so after the region it holds the lookup; the one host operation after
  the region views it as [4, 512, 512, 128].
-/
import proofs.«421582_j33543694582286_3_alg».proof.Proof.Gen.KernelIdeal.Frame
import proofs.«421582_j33543694582286_3_alg».proof.Proof.KernelPayload
import proofs.«421582_j33543694582286_3_alg».proof.Proof.Spec
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.RowValue

open Cert.KernelIdeal Cert.KernelIdeal.Gen Idealize.ShloMosaic.ValueIdx Cert.RowLookup

variable (m : (ℓ : Loc nD τ sig) → Buf (Elt Ideal) ℓ) (ρ : Dev nD → PrngReg)

/-- The two argument arrays at their literal types. -/
abbrev table (c : Dev nD) : FVec Ideal S4x256x128 .f32 := m ((c : Thread nD τ).loc main_arg0)
abbrev ids (c : Dev nD) : IVec S4x512x512 32 := m ((c : Thread nD τ).loc main_arg1)

/-! ## What the host operations before the launch leave -/

theorem V_ids (c : Dev nD) :
    (V m c main_v0 : S4x2048x128.Idx → BitVec 32) = shapeCast S4x2048x128 (ids m c) shapeCasts_S4x512x512_S4x2048x128 := by
  show StableHlo.after hostOps0 (fun b => m (c, b)) (Proc.devRef .tc main_v0) = _
  after_results <;> rfl

theorem V_hi (c : Dev nD) : (V m c main_v1 : S4x256x128.Idx → EReal) = table m c := by
  show StableHlo.after hostOps0 (fun b => m (c, b)) (Proc.devRef .tc main_v1) = _
  after_results <;> rfl

theorem V_lo (c : Dev nD) : (V m c main_v4 : S4x256x128.Idx → EReal) = fun i => table m c i - table m c i := by
  show StableHlo.after hostOps0 (fun b => m (c, b)) (Proc.devRef .tc main_v4) = _
  after_results <;> rfl

/-! ## The grid's index maps -/

theorem hz : (![0, 0, 0] : Fin 3 → Nat) = fun _ => 0 := funext fun a => by fin_cases a <;> rfl

/-- The printed index maps, decided once over the 256 grid points: the ids' block moves with the output's on the first
    two axes, the table blocks follow the batch alone, and the output's block indices stay in range. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 4 ∧ win0_3.index t (1 : Fin 3) < 64 ∧ win0_3.index t (2 : Fin 3) = 0 :=
  (by decide +kernel : ∀ t : Fin grid0.N, _)

/-- Every (batch, tile) is some grid point's. -/
theorem idx_onto : ∀ (b : Fin 4) (ti : Fin 64), ∃ t : Fin cfg0.N, win0_3.index t = ![b.val, ti.val, 0] :=
  (by decide +kernel : ∀ (b : Fin 4) (ti : Fin 64), ∃ t : Fin grid0.N, win0_3.index t = ![b.val, ti.val, 0])

/-- The batch of grid point `t`. -/
def batchOf (t : Fin cfg0.N) : Fin 4 := ⟨win0_3.index t (0 : Fin 3), (idx_facts t).2.2.2.2.2.2.2.2.2.1⟩
/-- Pixel `p` of grid point `t`'s tile, in its batch's image. -/
def pixelOf (t : Fin cfg0.N) (p : Fin 4096) : Fin 262144 :=
  ⟨win0_3.index t (1 : Fin 3) * 4096 + p.val, by have := (idx_facts t).2.2.2.2.2.2.2.2.2.2.1; have := p.isLt; omega⟩

/-! ## The blocks a point reads -/

/-- The id pixel `p` of point `t`'s block reads is the id of pixel `pixelOf t p` of batch `batchOf t`. -/
theorem ids_at (c : Dev nD) (t : Fin cfg0.N) (p : Fin 4096) :
    idAt (iblk m c 0 t) p = ids m c (pixel (batchOf t) (pixelOf t p)) := by
  obtain ⟨e00, e01, e02, -, -, -, -, -, -, hb, hti, -⟩ := idx_facts t
  show iblk m c 0 t (ix3 (0 : Fin 1) (⟨p.val / 128, by omega⟩ : Fin 32) (⟨p.val % 128, by omega⟩ : Fin 128)) = _
  unfold iblk
  rw [View.read_apply]
  show (V m c main_v0 : S4x2048x128.Idx → BitVec 32) _ = _
  rw [V_ids]
  refine shapeCast_apply (ids m c) shapeCasts_S4x512x512_S4x2048x128 _ (pixel (batchOf t) (pixelOf t p)) ?_
  rw [Shape.rowMajor_val_three, Shape.rowMajor_val_three]
  show ((win0_3.index t (0 : Fin 3)) * 512 + (win0_3.index t (1 : Fin 3) * 4096 + p.val) / 512) * 512
      + (win0_3.index t (1 : Fin 3) * 4096 + p.val) % 512
    = ((win0_0.index t (0 : Fin 3) * 1 + 1 * 0) * 2048 + (win0_0.index t (1 : Fin 3) * 32 + 1 * (p.val / 128))) * 128
      + (win0_0.index t (2 : Fin 3) * 128 + 1 * (p.val % 128))
  have := p.isLt
  omega

/-- Row `r`, channel `ch` of the `hi` block point `t` reads is the table's entry for `t`'s batch. -/
theorem hi_at (c : Dev nD) (t : Fin cfg0.N) (r : Fin 256) (ch : Fin 128) :
    iblk m c 1 t (ix3 (0 : Fin 1) r ch) = table m c (ix3 (batchOf t) r ch) := by
  obtain ⟨-, -, -, e10, e11, e12, -⟩ := idx_facts t
  unfold iblk
  rw [View.read_apply]
  show (V m c main_v1 : S4x256x128.Idx → EReal) _ = _
  rw [V_hi]
  refine congrArg (table m c) (funext fun a => Fin.ext ?_)
  match a with
  | ⟨0, _⟩ => show win0_1.index t (0 : Fin 3) * 1 + 1 * 0 = win0_3.index t (0 : Fin 3); omega
  | ⟨1, _⟩ => show win0_1.index t (1 : Fin 3) * 256 + 1 * r.val = r.val; omega
  | ⟨2, _⟩ => show win0_1.index t (2 : Fin 3) * 128 + 1 * ch.val = ch.val; omega

/-- The same entry of the `lo` block: the table's entry less itself. -/
theorem lo_at (c : Dev nD) (t : Fin cfg0.N) (r : Fin 256) (ch : Fin 128) :
    iblk m c 2 t (ix3 (0 : Fin 1) r ch) = table m c (ix3 (batchOf t) r ch) - table m c (ix3 (batchOf t) r ch) := by
  obtain ⟨-, -, -, -, -, -, e20, e21, e22, -⟩ := idx_facts t
  unfold iblk
  rw [View.read_apply]
  show (V m c main_v4 : S4x256x128.Idx → EReal) _ = _
  rw [V_lo]
  have e : (((cfg0.win 2).blk t).view.emb (ix3 (0 : Fin 1) r ch) : S4x256x128.Idx) = ix3 (batchOf t) r ch :=
    funext fun a => Fin.ext (by
      match a with
      | ⟨0, _⟩ => show win0_2.index t (0 : Fin 3) * 1 + 1 * 0 = win0_3.index t (0 : Fin 3); omega
      | ⟨1, _⟩ => show win0_2.index t (1 : Fin 3) * 256 + 1 * r.val = r.val; omega
      | ⟨2, _⟩ => show win0_2.index t (2 : Fin 3) * 128 + 1 * ch.val = ch.val; omega)
  show table m c _ - table m c _ = _
  rw [e]

/-- Where element `y` of point `t`'s output block sits in the array. -/
theorem out_at (t : Fin cfg0.N) (y : S1x4096x128.Idx) :
    (((cfg0.win 3).blk t).view.emb y : S4x262144x128.Idx)
      = ix3 (batchOf t) (pixelOf t ⟨(y 1).val, (y 1).isLt⟩) (⟨(y 2).val, (y 2).isLt⟩ : Fin 128) := by
  obtain ⟨-, -, -, -, -, -, -, -, -, hb, hti, e32⟩ := idx_facts t
  have h0 : (y 0).val < 1 := (y 0).isLt
  refine funext fun a => Fin.ext ?_
  match a with
  | ⟨0, _⟩ => show win0_3.index t (0 : Fin 3) * 1 + 1 * (y 0).val = win0_3.index t (0 : Fin 3); omega
  | ⟨1, _⟩ => show win0_3.index t (1 : Fin 3) * 4096 + 1 * (y 1).val = win0_3.index t (1 : Fin 3) * 4096 + (y 1).val; omega
  | ⟨2, _⟩ => show win0_3.index t (2 : Fin 3) * 128 + 1 * (y 2).val = (y 2).val; omega

/-! ## What a point writes back, the cover, the array -/

/-- The body's value at any element of the block. -/
theorem pay_at (x0 : Vec Ideal S1x32x128 .i32) (x1 x2 : Vec Ideal S1x256x128 .bf16) (y : S1x4096x128.Idx)
    (hw : InRange (idAt x0 ⟨(y 1).val, (y 1).isLt⟩)) :
    k0_pay1 (F := Ideal) x0 x1 x2 y
      = x1 (ix3 (0 : Fin 1) (rowOf (idAt x0 ⟨(y 1).val, (y 1).isLt⟩)) (⟨(y 2).val, (y 2).isLt⟩ : Fin 128))
        + x2 (ix3 (0 : Fin 1) (rowOf (idAt x0 ⟨(y 1).val, (y 1).isLt⟩)) (⟨(y 2).val, (y 2).isLt⟩ : Fin 128)) := by
  have h0 : (y 0).val < 1 := (y 0).isLt
  have hy : y = ix3 (0 : Fin 1) (⟨(y 1).val, (y 1).isLt⟩ : Fin 4096) (⟨(y 2).val, (y 2).isLt⟩ : Fin 128) :=
    funext fun a => Fin.ext (by
      match a with
      | ⟨0, _⟩ => show (y 0).val = 0; omega
      | ⟨1, _⟩ => rfl
      | ⟨2, _⟩ => rfl)
  exact (congrArg (k0_pay1 (F := Ideal) x0 x1 x2) hy).trans (pay_apply x0 x1 x2 _ _ hw)

/-- WHAT POINT `t` WRITES BACK is block `t` of the lookup. -/
theorem flushed_eq (c : Dev nD) (hreal : ∀ i, ∃ r : ℝ, table m c i = (r : EReal)) (hin : ∀ i, InRange (ids m c i)) (t : Fin cfg0.N) :
    (dats m 0 c).flushed 3 t = ((cfg0.win 3).blk t).view.read (Elt Ideal) (lookup (table m c) (ids m c)) := by
  show (cfg0.win 3).cut (grid0.coords t) ((dats m 0 c).after 3 t) = _
  rw [after0_3]
  unfold out0_3
  rw [View.canon_unit_zero hz]
  simp only [View.ld_unit_zero (S := S1x32x128) hz, View.ld_unit_zero (S := S1x256x128) hz]
  funext y
  show k0_pay1 (F := Ideal) (iblk m c 0 t) (iblk m c 1 t) (iblk m c 2 t) y = lookup (table m c) (ids m c) (((cfg0.win 3).blk t).view.emb y)
  have hw : InRange (idAt (iblk m c 0 t) ⟨(y 1).val, (y 1).isLt⟩) := by rw [ids_at]; exact hin _
  rw [pay_at (iblk m c 0 t) (iblk m c 1 t) (iblk m c 2 t) y hw, ids_at, hi_at, lo_at, out_at, lookup_apply]
  exact add_sub_self_of_real (hreal _)

/-- An index of the array is in point `t`'s block iff each coordinate is in the block's range on its axis. -/
theorem mem_blk (t : Fin cfg0.N) (i : S4x262144x128.Idx) :
    i ∈ ((cfg0.win 3).blk t).view.set ↔ ∀ a : Fin 3, win0_3.index t a * S1x4096x128.size a ≤ (i a).val
      ∧ (i a).val < win0_3.index t a * S1x4096x128.size a + S1x4096x128.size a := by
  show i ∈ ((View.whole main_v5).slice (win0_3.rect t)).set ↔ _
  rw [View.set_slice_whole, Rect.mem_set_unit]
  exact Iff.rfl

/-- The output's blocks cover the array: pixel `q` of batch `b` is in tile `q / 4096`. -/
theorem cover (i : S4x262144x128.Idx) :
    ∃ t : Fin cfg0.N, (cfg0.win 3).flush t = true ∧ i ∈ ((cfg0.win 3).blk t).view.set := by
  have hi0 : (i 0).val < 4 := (i 0).isLt
  have hi1 : (i 1).val < 262144 := (i 1).isLt
  have hi2 : (i 2).val < 128 := (i 2).isLt
  obtain ⟨t, ht⟩ := idx_onto ⟨(i 0).val, hi0⟩ ⟨(i 1).val / 4096, by omega⟩
  have q0 : win0_3.index t (0 : Fin 3) = (i 0).val := congrFun ht 0
  have q1 : win0_3.index t (1 : Fin 3) = (i 1).val / 4096 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 128 ≤ (i 2).val ∧ (i 2).val < win0_3.index t (2 : Fin 3) * 128 + 128; omega

/-- THE ARRAY after the region: the lookup. -/
theorem final (c : Dev nD) (hreal : ∀ i, ∃ r : ℝ, table m c i = (r : EReal)) (hin : ∀ i, InRange (ids m c i)) :
    (dats m 0 c).arrAt 3 cfg0.N = lookup (table m c) (ids m c) :=
  (dats m 0 c).arrAt_eq_of_cover 3 (lookup (table m c) (ids m c)) (fun t _ => flushed_eq m c hreal hin t) cover

/-! ## The host operation after the region, and the run -/

/-- The result buffer after the whole program: the lookup viewed [4, 512, 512, 128]. -/
theorem tail_eq (c : Dev nD) (hreal : ∀ i, ∃ r : ℝ, table m c i = (r : EReal)) (hin : ∀ i, InRange (ids m c i)) :
    Pipeline.afterTail₀ cfgs (dats m) 0 (V0 m) [hostOps1] c main_v6
      = shapeCast S4x512x512x128 (lookup (table m c) (ids m c)) shapeCasts_S4x262144x128_S4x512x512x128 := by
  unfold Pipeline.afterTail₀
  show StableHlo.after hostOps1 _ (Proc.devRef .tc main_v6) = _
  after_results
  rw [(Pipeline.withArrays_arr spec0 launch0.win.arr_inj c _ _ 3).trans (final m c hreal hin)]
  rfl

/-- THE RUN, READ: for a finite table and ids in range, every weakly fair execution of the kernel program terminates
    with the result at the lookup viewed [4, 512, 512, 128] and the arguments unchanged. -/
theorem run (hreal : ∀ c i, ∃ r : ℝ, table m c i = (r : EReal)) (hin : ∀ c i, InRange (ids m c i)) :
    θ_run defs (onTc (τ := τ) (main (F := Ideal))) ⟨m, fun _ => 0, ρ⟩ fun r => ∀ c : Dev nD,
      r.2.mem ((c.tc : Thread nD τ).loc main_v6)
        = shapeCast S4x512x512x128 (lookup (table m c) (ids m c)) shapeCasts_S4x262144x128_S4x512x512x128
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_eq m c (hreal c) (hin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RowValue

end
-- ==== Proof.RefRun.lean ====
/-
  The reference program's run, read back over STAGES.

  @main is a straight line of 27 host operations (the body of `take_along_axis` stands in its call's place). Cut into six
  stretches, each stretch is a pure function of the few buffers it reads:

    A  (4 operations)   ids - 1, viewed [4, 262144, 1]                                    `idx0`
    B  (7)              numpy's wrap of a negative index: add 256 where below 0           `wrapped`
    C  (10)             the bounds test 0 ≤ · ≤ 255, reduced by `and` over the unit axis   `inBounds`
    D  (1)              the gather of table rows at the wrapped indices                   `rows`
    E  (4)              where in bounds the gathered row, elsewhere the fill constant     `picked`
    F  (1)              the view as [4, 512, 512, 128]                                    `viewed`

  For ANY contents `V` of the device's buffers, what a stretch leaves in the buffer it computes is that function of what
  `V` holds in the buffers it reads, and the buffers it does not write it leaves alone; the run of the whole line is
  the composition (`after` over a concatenation is the composition of `after`s).
-/
import proofs.«421582_j33543694582286_3_alg».proof.Proof.Gen.ReferenceIdeal
import Idealize.ShloMosaic.Lib.StableHlo.Run
import Idealize.ShloMosaic.Lib.Pipeline.Frame

noncomputable section

namespace Cert.ReferenceIdeal.RowRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as pure functions -/

def idx0 (x1 : (⟨S4x512x512, .i32⟩ : BufTy).Contents (Elt F)) : (⟨S4x262144x1, .i32⟩ : BufTy).Contents (Elt F) :=
  shapeCast _ (subi x1 (broadcastInDim S4x512x512 ![] bcast_S_S4x512x512 (constantI S_ 32 1#32))) shapeCasts_S4x512x512_S4x262144x1

def wrapped (X : (⟨S4x262144x1, .i32⟩ : BufTy).Contents (Elt F)) : (⟨S4x262144x1, .i32⟩ : BufTy).Contents (Elt F) :=
  select (cmpi .slt X (broadcastInDim S4x262144x1 ![] bcast_S_S4x262144x1 (constantI S_ 32 0#32)))
    (addi X (broadcastInDim S4x262144x1 ![] bcast_S_S4x262144x1 (constantI S_ 32 256#32))) X

def inBounds (Y : (⟨S4x262144x1, .i32⟩ : BufTy).Contents (Elt F)) : (⟨S4x262144, .i1⟩ : BufTy).Contents (Elt F) :=
  Host.reduce IntOp.andi
    (andi (cmpi .sge Y (broadcastInDim S4x262144x1 ![] bcast_S_S4x262144x1 (constantI S_ 32 0#32)))
      (cmpi .sle Y (broadcastInDim S4x262144x1 ![0, 1, 2] bcast_S1x1x1_S4x262144x1_0_1_2
        (broadcastInDim S1x1x1 ![2] bcast_S1_S1x1x1_2 (constantI S1 32 255#32)))))
    (constantI S_ 1 1#1) reducesTo_S4x262144x1_S4x262144_d2 h_S_

def rows (x0 : (⟨S4x256x128, .f32⟩ : BufTy).Contents (Elt F)) (Y : (⟨S4x262144x1, .i32⟩ : BufTy).Contents (Elt F)) :
    (⟨S4x262144x128, .f32⟩ : BufTy).Contents (Elt F) :=
  Host.gather gather_S4x256x128_S4x262144x1_S4x262144x128_2_1_0_0_1_2_11128 x0 Y

def picked (M : (⟨S4x262144, .i1⟩ : BufTy).Contents (Elt F)) (G : (⟨S4x262144x128, .f32⟩ : BufTy).Contents (Elt F)) :
    (⟨S4x262144x128, .f32⟩ : BufTy).Contents (Elt F) :=
  select (broadcastInDim S4x262144x128 ![0, 1] bcast_S4x262144_S4x262144x128_0_1 M) G
    (broadcastInDim S4x262144x128 ![] bcast_S_S4x262144x128 (constant (F := F) S_ .f32 0x7FC00000#32))

def viewed (P : (⟨S4x262144x128, .f32⟩ : BufTy).Contents (Elt F)) : (⟨S4x512x512x128, .f32⟩ : BufTy).Contents (Elt F) :=
  shapeCast _ P shapeCasts_S4x262144x128_S4x512x512x128

/-! ## The operations, in six stretches -/

abbrev opsA : List (HloOp τ sig (Elt F)) :=
  [ nullary main_c (constantI S_ 32 1#32),
    unary main_c main_v0 (broadcastInDim S4x512x512 ![] bcast_S_S4x512x512 : (⟨S_, .i32⟩ : BufTy).Contents (Elt F) → (⟨S4x512x512, .i32⟩ : BufTy).Contents (Elt F)),
    binary main_arg1 main_v0 main_v1 (subi : (⟨S4x512x512, .i32⟩ : BufTy).Contents (Elt F) → (⟨S4x512x512, .i32⟩ : BufTy).Contents (Elt F) → (⟨S4x512x512, .i32⟩ : BufTy).Contents (Elt F)),
    reshape main_v1 main_v2 rfl shapeCasts_S4x512x512_S4x262144x1 ]

abbrev opsB : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S4x262144x1, .i32⟩) main_call0_v0) (broadcastInDim S4x262144x1 ![] bcast_S_S4x262144x1),
    TRef.binary (TRef.of (T := ⟨S4x262144x1, .i32⟩) main_v2) (TRef.of (T := ⟨S4x262144x1, .i32⟩) main_call0_v0) (TRef.of (T := ⟨S4x262144x1, .i1⟩) main_call0_v1) (cmpi .slt),
    TRef.nullary (TRef.of (T := ⟨S_, .i32⟩) main_call0_c_0) (constantI S_ 32 256#32),
    TRef.unary (TRef.of (T := ⟨S_, .i32⟩) main_call0_c_0) (TRef.of (T := ⟨S4x262144x1, .i32⟩) main_call0_v2) (broadcastInDim S4x262144x1 ![] bcast_S_S4x262144x1),
    TRef.binary (TRef.of (T := ⟨S4x262144x1, .i32⟩) main_v2) (TRef.of (T := ⟨S4x262144x1, .i32⟩) main_call0_v2) (TRef.of (T := ⟨S4x262144x1, .i32⟩) main_call0_v3) addi,
    TRef.ternary (TRef.of (T := ⟨S4x262144x1, .i1⟩) main_call0_v1) (TRef.of (T := ⟨S4x262144x1, .i32⟩) main_call0_v3) (TRef.of (T := ⟨S4x262144x1, .i32⟩) main_v2) (TRef.of (T := ⟨S4x262144x1, .i32⟩) main_call0_v4) select ]

abbrev opsC : List (HloOp τ sig (Elt F)) :=
  [ TRef.nullary (TRef.of (T := ⟨S1, .i32⟩) main_call0_c_1) (constantI S1 32 255#32),
    TRef.nullary (TRef.of (T := ⟨S_, .i32⟩) main_call0_c_2) (constantI S_ 32 0#32),
    TRef.unary (TRef.of (T := ⟨S_, .i32⟩) main_call0_c_2) (TRef.of (T := ⟨S4x262144x1, .i32⟩) main_call0_v5) (broadcastInDim S4x262144x1 ![] bcast_S_S4x262144x1),
    TRef.binary (TRef.of (T := ⟨S4x262144x1, .i32⟩) main_call0_v4) (TRef.of (T := ⟨S4x262144x1, .i32⟩) main_call0_v5) (TRef.of (T := ⟨S4x262144x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S4x262144x1, .i32⟩) main_call0_v8) (broadcastInDim S4x262144x1 ![0, 1, 2] bcast_S1x1x1_S4x262144x1_0_1_2),
    TRef.binary (TRef.of (T := ⟨S4x262144x1, .i32⟩) main_call0_v4) (TRef.of (T := ⟨S4x262144x1, .i32⟩) main_call0_v8) (TRef.of (T := ⟨S4x262144x1, .i1⟩) main_call0_v9) (cmpi .sle),
    TRef.binary (TRef.of (T := ⟨S4x262144x1, .i1⟩) main_call0_v6) (TRef.of (T := ⟨S4x262144x1, .i1⟩) main_call0_v9) (TRef.of (T := ⟨S4x262144x1, .i1⟩) main_call0_v10) andi,
    TRef.nullary (TRef.of (T := ⟨S_, .i1⟩) main_call0_c_3) (constantI S_ 1 1#1),
    TRef.binary (TRef.of (T := ⟨S4x262144x1, .i1⟩) main_call0_v10) (TRef.of (T := ⟨S_, .i1⟩) main_call0_c_3) (TRef.of (T := ⟨S4x262144, .i1⟩) main_call0_v11) (fun x v => Host.reduce IntOp.andi x v reducesTo_S4x262144x1_S4x262144_d2 h_S_) ]

abbrev opsD : List (HloOp τ sig (Elt F)) :=
  [ TRef.binary (TRef.of (T := ⟨S4x256x128, .f32⟩) main_arg0) (TRef.of (T := ⟨S4x262144x1, .i32⟩) main_call0_v4) (TRef.of (T := ⟨S4x262144x128, .f32⟩) main_call0_v12) (fun x i => Host.gather gather_S4x256x128_S4x262144x1_S4x262144x128_2_1_0_0_1_2_11128 x i) ]

abbrev opsE : List (HloOp τ sig (Elt F)) :=
  [ TRef.unary (TRef.of (T := ⟨S4x262144, .i1⟩) main_call0_v11) (TRef.of (T := ⟨S4x262144x128, .i1⟩) main_call0_v13) (broadcastInDim S4x262144x128 ![0, 1] bcast_S4x262144_S4x262144x128_0_1),
    TRef.nullary (TRef.of (T := ⟨S_, .f32⟩) main_call0_cst) (constant S_ .f32 0x7FC00000#32),
    TRef.unary (TRef.of (T := ⟨S_, .f32⟩) main_call0_cst) (TRef.of (T := ⟨S4x262144x128, .f32⟩) main_call0_v14) (broadcastInDim S4x262144x128 ![] bcast_S_S4x262144x128),
    TRef.ternary (TRef.of (T := ⟨S4x262144x128, .i1⟩) main_call0_v13) (TRef.of (T := ⟨S4x262144x128, .f32⟩) main_call0_v12) (TRef.of (T := ⟨S4x262144x128, .f32⟩) main_call0_v14) (TRef.of (T := ⟨S4x262144x128, .f32⟩) main_v3) select ]

abbrev opsF : List (HloOp τ sig (Elt F)) :=
  [ reshape main_v3 main_v4 rfl shapeCasts_S4x262144x128_S4x512x512x128 ]

/-- @main's 27 operations, in order. -/
abbrev ops : List (HloOp τ sig (Elt F)) := opsA ++ (opsB ++ (opsC ++ (opsD ++ (opsE ++ opsF))))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., reshape_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩

/-! ## Each stretch, from any contents -/

variable (V : Valuation τ sig (Elt F))

theorem A_idx : after opsA V (Proc.devRef .tc main_v2) = idx0 (F := F) (V (Proc.devRef .tc main_arg1)) := by
  after_results <;> (try simp only [TRef.ofBuf, TRef.toBuf, cast_eq]) <;> rfl
theorem A_table : after opsA V (Proc.devRef .tc main_arg0) = V (Proc.devRef .tc main_arg0) := by
  after_results <;> (try simp only [TRef.ofBuf, TRef.toBuf, cast_eq]) <;> rfl
theorem A_ids : after opsA V (Proc.devRef .tc main_arg1) = V (Proc.devRef .tc main_arg1) := by
  after_results <;> (try simp only [TRef.ofBuf, TRef.toBuf, cast_eq]) <;> rfl

theorem B_wrapped : after opsB V (Proc.devRef .tc main_call0_v4) = wrapped (F := F) (V (Proc.devRef .tc main_v2)) := by
  after_results <;> (try simp only [TRef.ofBuf, TRef.toBuf, cast_eq]) <;> rfl
theorem B_table : after opsB V (Proc.devRef .tc main_arg0) = V (Proc.devRef .tc main_arg0) := by
  after_results <;> (try simp only [TRef.ofBuf, TRef.toBuf, cast_eq]) <;> rfl
theorem B_ids : after opsB V (Proc.devRef .tc main_arg1) = V (Proc.devRef .tc main_arg1) := by
  after_results <;> (try simp only [TRef.ofBuf, TRef.toBuf, cast_eq]) <;> rfl

theorem C_inBounds : after opsC V (Proc.devRef .tc main_call0_v11) = inBounds (F := F) (V (Proc.devRef .tc main_call0_v4)) := by
  after_results <;> (try simp only [TRef.ofBuf, TRef.toBuf, cast_eq]) <;> rfl
theorem C_wrapped : after opsC V (Proc.devRef .tc main_call0_v4) = V (Proc.devRef .tc main_call0_v4) := by
  after_results <;> (try simp only [TRef.ofBuf, TRef.toBuf, cast_eq]) <;> rfl
theorem C_table : after opsC V (Proc.devRef .tc main_arg0) = V (Proc.devRef .tc main_arg0) := by
  after_results <;> (try simp only [TRef.ofBuf, TRef.toBuf, cast_eq]) <;> rfl
theorem C_ids : after opsC V (Proc.devRef .tc main_arg1) = V (Proc.devRef .tc main_arg1) := by
  after_results <;> (try simp only [TRef.ofBuf, TRef.toBuf, cast_eq]) <;> rfl

theorem D_rows : after opsD V (Proc.devRef .tc main_call0_v12)
    = rows (F := F) (V (Proc.devRef .tc main_arg0)) (V (Proc.devRef .tc main_call0_v4)) := by
  after_results <;> (try simp only [TRef.ofBuf, TRef.toBuf, cast_eq]) <;> rfl
theorem D_inBounds : after opsD V (Proc.devRef .tc main_call0_v11) = V (Proc.devRef .tc main_call0_v11) := by
  after_results <;> (try simp only [TRef.ofBuf, TRef.toBuf, cast_eq]) <;> rfl
theorem D_table : after opsD V (Proc.devRef .tc main_arg0) = V (Proc.devRef .tc main_arg0) := by
  after_results <;> (try simp only [TRef.ofBuf, TRef.toBuf, cast_eq]) <;> rfl
theorem D_ids : after opsD V (Proc.devRef .tc main_arg1) = V (Proc.devRef .tc main_arg1) := by
  after_results <;> (try simp only [TRef.ofBuf, TRef.toBuf, cast_eq]) <;> rfl

theorem E_picked : after opsE V (Proc.devRef .tc main_v3)
    = picked (F := F) (V (Proc.devRef .tc main_call0_v11)) (V (Proc.devRef .tc main_call0_v12)) := by
  after_results <;> (try simp only [TRef.ofBuf, TRef.toBuf, cast_eq]) <;> rfl
theorem E_table : after opsE V (Proc.devRef .tc main_arg0) = V (Proc.devRef .tc main_arg0) := by
  after_results <;> (try simp only [TRef.ofBuf, TRef.toBuf, cast_eq]) <;> rfl
theorem E_ids : after opsE V (Proc.devRef .tc main_arg1) = V (Proc.devRef .tc main_arg1) := by
  after_results <;> (try simp only [TRef.ofBuf, TRef.toBuf, cast_eq]) <;> rfl

theorem F_viewed : after opsF V (Proc.devRef .tc main_v4) = viewed (F := F) (V (Proc.devRef .tc main_v3)) := by
  after_results <;> (try simp only [TRef.ofBuf, TRef.toBuf, cast_eq]) <;> rfl
theorem F_table : after opsF V (Proc.devRef .tc main_arg0) = V (Proc.devRef .tc main_arg0) := by
  after_results <;> (try simp only [TRef.ofBuf, TRef.toBuf, cast_eq]) <;> rfl
theorem F_ids : after opsF V (Proc.devRef .tc main_arg1) = V (Proc.devRef .tc main_arg1) := by
  after_results <;> (try simp only [TRef.ofBuf, TRef.toBuf, cast_eq]) <;> rfl

/-! ## The whole line -/

/-- The result buffer after the whole line: the stages composed. -/
theorem result_eq : after ops V (Proc.devRef .tc main_v4)
    = viewed (F := F) (picked (inBounds (wrapped (idx0 (V (Proc.devRef .tc main_arg1)))))
        (rows (V (Proc.devRef .tc main_arg0)) (wrapped (idx0 (V (Proc.devRef .tc main_arg1)))))) := by
  unfold ops
  rw [StableHlo.after_append, StableHlo.after_append, StableHlo.after_append, StableHlo.after_append, StableHlo.after_append,
    F_viewed, E_picked, D_rows, D_inBounds, C_inBounds, C_wrapped, C_table, B_wrapped, B_table, A_idx, A_table]

theorem table_kept : after ops V (Proc.devRef .tc main_arg0) = V (Proc.devRef .tc main_arg0) := by
  unfold ops
  rw [StableHlo.after_append, StableHlo.after_append, StableHlo.after_append, StableHlo.after_append, StableHlo.after_append,
    F_table, E_table, D_table, C_table, B_table, A_table]

theorem ids_kept : after ops V (Proc.devRef .tc main_arg1) = V (Proc.devRef .tc main_arg1) := by
  unfold ops
  rw [StableHlo.after_append, StableHlo.after_append, StableHlo.after_append, StableHlo.after_append, StableHlo.after_append,
    F_ids, E_ids, D_ids, C_ids, B_ids, A_ids]

/-- THE RUN: on every device, from any memory with zero counters, every weakly fair execution of @main terminates with the
    result at the stages composed over the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = viewed (F := F) (picked (inBounds (wrapped (idx0 (m ((c.tc : Thread nD τ).loc main_arg1)))))
            (rows (m ((c.tc : Thread nD τ).loc main_arg0)) (wrapped (idx0 (m ((c.tc : Thread nD τ).loc main_arg1))))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (result_eq (launchContents m c)),
      (h c main_arg0).trans (table_kept (launchContents m c)),
      (h c main_arg1).trans (ids_kept (launchContents m c))⟩)
    (run_seq scopedRefs_eq scopedSems_eq defs main (fun _ => ops) main_eq (fun _ => ops_sub) m ρ)

end Cert.ReferenceIdeal.RowRun

end
-- ==== Proof.RefValue.lean ====
/-
  The reference's result, for ids in their range, is the lookup viewed [4, 512, 512, 128].

  Pixel (b, q) of the flattened index array is `ids (b, q / 512, q % 512) - 1` (a reshape keeps row-major order). For an id
  in [1, 256] that word is in [0, 255]: numpy's wrap of a negative index leaves it alone, the bounds test holds of it at
  every pixel — so the `and` over the unit axis is 1 everywhere and the select keeps the gathered value, never the fill
  constant —, and the gather's own clamp leaves it alone, so the gathered element (b, q, c) is `table (b, id - 1, c)`.
-/
import proofs.«421582_j33543694582286_3_alg».proof.Proof.RefRun
import proofs.«421582_j33543694582286_3_alg».proof.Proof.Spec
import Idealize.ShloMosaic.Lib.Pipeline.Value
import Idealize.ShloMosaic.Lib.ReduceAll

noncomputable section

namespace Cert.ReferenceIdeal.RowRun

open Cert.ReferenceIdeal Cert.ReferenceIdeal.Gen Idealize.ShloMosaic Idealize.ShloMosaic.ValueIdx Cert.RowLookup

variable (x0 : FVec Ideal S4x256x128 .f32) (x1 : IVec S4x512x512 32)

/-- The flattened index array at (b, q, 0): the id of pixel (b, q), less one. -/
theorem idx0_apply (b : Fin 4) (q : Fin 262144) :
    idx0 (F := Ideal) x1 (ix3 b q (0 : Fin 1)) = IntOp.subi (x1 (pixel b q)) 1#32 := by
  unfold idx0
  rw [shapeCast_apply _ shapeCasts_S4x512x512_S4x262144x1 (ix3 b q (0 : Fin 1)) (pixel b q) (by
    rw [Shape.rowMajor_val_three, Shape.rowMajor_val_three]
    show (b.val * 512 + q.val / 512) * 512 + q.val % 512 = (b.val * 262144 + q.val) * 1 + 0
    omega)]
  rfl

/-- For an id in range the wrapped index is the id less one. -/
theorem wrapped_apply (hin : ∀ i, InRange (x1 i)) (b : Fin 4) (q : Fin 262144) :
    wrapped (F := Ideal) (idx0 (F := Ideal) x1) (ix3 b q (0 : Fin 1)) = IntOp.subi (x1 (pixel b q)) 1#32 := by
  unfold wrapped
  show Scalar.select (IntOp.cmpi .slt (idx0 (F := Ideal) x1 (ix3 b q (0 : Fin 1))) 0#32)
    (IntOp.addi (idx0 (F := Ideal) x1 (ix3 b q (0 : Fin 1))) 256#32) (idx0 (F := Ideal) x1 (ix3 b q (0 : Fin 1))) = _
  rw [idx0_apply]
  exact wrap_pred (hin _)

/-- A left fold by `and` from 1 over bits that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self), show IntOp.andi 1#1 1#1 = 1#1 from by decide]
    exact foldl_andi_one f l fun n hn => h n (List.mem_cons_of_mem _ hn)

/-- Every wrapped index of an array of in-range ids passes the bounds test. -/
theorem inBounds_one (hin : ∀ i, InRange (x1 i)) (j : S4x262144.Idx) :
    inBounds (F := Ideal) (wrapped (F := Ideal) (idx0 (F := Ideal) x1)) j = 1#1 := by
  unfold inBounds
  rw [Host.reduce_eq_foldl]
  refine foldl_andi_one _ _ fun i _ => ?_
  obtain ⟨b, q, z, rfl⟩ : ∃ (b : Fin 4) (q : Fin 262144) (z : Fin 1), i = ix3 b q z := ⟨i 0, i 1, i 2, eq_ix3 i⟩
  obtain rfl : z = 0 := Subsingleton.elim _ _
  show IntOp.andi (IntOp.cmpi .sge (wrapped (F := Ideal) (idx0 (F := Ideal) x1) (ix3 b q (0 : Fin 1))) 0#32)
    (IntOp.cmpi .sle (wrapped (F := Ideal) (idx0 (F := Ideal) x1) (ix3 b q (0 : Fin 1))) 255#32) = 1#1
  rw [wrapped_apply x1 hin]
  exact inBounds_pred (hin _)

/-- THE REFERENCE'S RESULT for ids in range. -/
theorem result_lookup (hin : ∀ i, InRange (x1 i)) :
    viewed (F := Ideal) (picked (inBounds (wrapped (idx0 x1))) (rows x0 (wrapped (idx0 x1))))
      = shapeCast S4x512x512x128 (lookup x0 x1) shapeCasts_S4x262144x128_S4x512x512x128 := by
  unfold viewed
  refine congrArg (fun P => shapeCast S4x512x512x128 P shapeCasts_S4x262144x128_S4x512x512x128) (funext fun i => ?_)
  obtain ⟨b, q, c, rfl⟩ : ∃ (b : Fin 4) (q : Fin 262144) (c : Fin 128), i = ix3 b q c := ⟨i 0, i 1, i 2, eq_ix3 i⟩
  unfold picked
  show Scalar.select (broadcastInDim S4x262144x128 ![0, 1] bcast_S4x262144_S4x262144x128_0_1
      (inBounds (F := Ideal) (wrapped (F := Ideal) (idx0 (F := Ideal) x1))) (ix3 b q c))
    (rows (F := Ideal) x0 (wrapped (F := Ideal) (idx0 (F := Ideal) x1)) (ix3 b q c)) _ = _
  rw [broadcastInDim_apply _ bcast_S4x262144_S4x262144x128_0_1 _ (ix3 b q c) (ix2 b q) (fun a => by
      match a with
      | ⟨0, _⟩ => show b.val = if (4 : Nat) = 1 then 0 else b.val; rw [if_neg (by decide)]
      | ⟨1, _⟩ => show q.val = if (262144 : Nat) = 1 then 0 else q.val; rw [if_neg (by decide)]),
    inBounds_one x1 hin]
  unfold Scalar.select
  rw [if_pos (by decide : (1#1 : BitVec 1) = 1)]
  unfold rows
  show Host.gather rowDims x0 (wrapped (F := Ideal) (idx0 (F := Ideal) x1)) (ix3 b q c) = _
  rw [gather_rows_apply, lookup_apply]
  congr 2
  apply Fin.ext
  show min (wrapped (F := Ideal) (idx0 (F := Ideal) x1) (ix3 b q (0 : Fin 1))).toInt.toNat 255 = (rowOf (x1 (pixel b q))).val
  rw [wrapped_apply x1 hin]
  rfl

end Cert.ReferenceIdeal.RowRun

end
-- ==== Proof.lean ====
/-
  A per-pixel row lookup, written two ways, is one function on the extended reals.

  The inputs are a table [4, 256, 128] (batch, segment, channel) of floats and an image [4, 512, 512] of 1-based segment
  ids. The reference takes, for each pixel, the table row `id - 1` of the pixel's batch (`take_along_axis` along the
  segment axis) and views the result [4, 512, 512, 128]. The kernel builds, per tile of 4096 pixels, the one-hot matrix of
  `id - 1` clamped into [0, 255] against the 256 rows and multiplies it with the table split in two, `hi + lo`, where `hi`
  is the table in a narrower format and `lo` the remainder `table - hi`.

  Outside the ids' range the two differ (the kernel clamps; the reference wraps a negative index and fills out-of-range
  ones), so the statement is made under the ids' range `1 ≤ id ≤ 256`, beside the finiteness of the table.

  On the extended reals a change of format is the identity, so `hi` is the table and `lo` is `table - table`: zero at
  every real entry — this is where finiteness is used. A one-hot weight is the number 1 at the id's row and 0 elsewhere,
  and `0 · x = 0`, `1 · x = x` for every extended real, so each product selects exactly the row `id - 1`: the kernel's
  entry is `table + (table - table) = table` at (batch, id - 1, channel). For an id in range the reference's wrap, bounds
  test and gather clamp all leave `id - 1` alone and it reads the same entry. Both programs end by the same view.

    Proof/RowWords.lean     words in range, the one-hot sum, real entries
    Proof/GatherRows.lean   the row gather read at an index
    Proof/Spec.lean         the lookup, as one function of the two arrays
    Proof/PreDecode.lean    the precondition read back
    Proof/KernelPayload.lean, Proof/KernelValue.lean   the kernel's body at an index; its blocks, the cover, the run
    Proof/RefRun.lean, Proof/RefValue.lean             the reference's run over stages; its result is the lookup
-/
import proofs.«421582_j33543694582286_3_alg».proof.Defs
import proofs.«421582_j33543694582286_3_alg».proof.Proof.Gen.Kernel
import proofs.«421582_j33543694582286_3_alg».proof.Proof.Gen.Kernel.Skeleton
import proofs.«421582_j33543694582286_3_alg».proof.Proof.Gen.Kernel.Launch
import proofs.«421582_j33543694582286_3_alg».proof.Proof.Gen.Kernel.Points
import proofs.«421582_j33543694582286_3_alg».proof.Proof.Gen.Kernel.Frame
import proofs.«421582_j33543694582286_3_alg».proof.Proof.Gen.KernelIdeal
import proofs.«421582_j33543694582286_3_alg».proof.Proof.Gen.KernelIdeal.Skeleton
import proofs.«421582_j33543694582286_3_alg».proof.Proof.Gen.KernelIdeal.Launch
import proofs.«421582_j33543694582286_3_alg».proof.Proof.Gen.KernelIdeal.Points
import proofs.«421582_j33543694582286_3_alg».proof.Proof.Gen.KernelIdeal.Frame
import proofs.«421582_j33543694582286_3_alg».proof.Proof.Gen.ReferenceIdeal
import proofs.«421582_j33543694582286_3_alg».proof.Proof.Gen.Pre_finite_inputs
import proofs.«421582_j33543694582286_3_alg».proof.Proof.PreDecode
import proofs.«421582_j33543694582286_3_alg».proof.Proof.KernelValue
import proofs.«421582_j33543694582286_3_alg».proof.Proof.RefValue
import Idealize.ShloMosaic.Adequacy
import Idealize.ShloMosaic.Init

noncomputable section

namespace Cert.Proof

open Idealize.ShloMosaic Idealize.SL.Sem

/-- The word-level kernel program runs and leaves its arguments alone: its generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments alone: its run with the result dropped. -/
theorem frame_reference : Cert.frame_ReferenceIdeal := fun m ρ _ =>
  (θ_run Cert.ReferenceIdeal.defs _ _).mono (fun _ h c => (h c).2) (Cert.ReferenceIdeal.RowRun.run (F := Ideal) m ρ)

/-- The idealization rewrote nothing. -/
theorem preserves : Cert.preserves_Kernel_KernelIdeal := trivial

/-- For a finite table and ids in [1, 256] both programs end with the lookup viewed [4, 512, 512, 128]. -/
theorem algebraic : Cert.algebraic_KernelIdeal_ReferenceIdeal := by
  intro m ρ m' ρ' hpre hagree
  have hdec := fun c => Cert.RowLookup.pre_decode _ _ (hpre c)
  refine ⟨_, Cert.KernelIdeal.RowValue.run m ρ (fun c => (hdec c).1) (fun c => (hdec c).2), ?_⟩
  refine (θ_run Cert.ReferenceIdeal.defs _ _).mono (fun _ h c => ⟨(h c).1.trans ?_, (h c).2⟩)
    (Cert.ReferenceIdeal.RowRun.run (F := Ideal) m' ρ')
  rw [(hagree c).1, (hagree c).2]
  exact Cert.ReferenceIdeal.RowRun.result_lookup _ _ (hdec c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
